-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel

variable [Facts]

def fn {F : FTy → Type} [FloatOps F] (main_arg0 : FVec F S4000000x5 .f32) (main_arg1 : FVec F S4000000x5 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  main_v8
-- ==== Kernel.lean ====
abbrev S4000000x5 : Shape := ⟨2, ![4000000, 5]⟩
abbrev S1x1 : Shape := ⟨2, ![1, 1]⟩
abbrev S10000x5 : Shape := ⟨2, ![10000, 5]⟩
abbrev S5x10000 : Shape := ⟨2, ![5, 10000]⟩
abbrev S1x10000 : Shape := ⟨2, ![1, 10000]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S1x1, .f32⟩
  | .hbm, ⟨3, _⟩ => ⟨S_, .f32⟩
  | .local _ .vmem, ⟨0, _⟩ => ⟨S10000x5, .f32⟩
  | .local _ .vmem, ⟨1, _⟩ => ⟨S10000x5, .f32⟩
  | .local _ .vmem, ⟨2, _⟩ => ⟨S10000x5, .f32⟩
  | .local _ .vmem, ⟨3, _⟩ => ⟨S10000x5, .f32⟩
  | .local _ .vmem, ⟨4, _⟩ => ⟨S1x1, .f32⟩
  | .local _ .vmem, ⟨5, _⟩ => ⟨S1x1, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![400], ![false]⟩

def k0_cond2 (i : grid0.Coords) : BitVec 1 :=
  let arg0 : BitVec 32 := BitVec.ofNat 32 (i 0).val
  let c399_i32 : BitVec 32 := 399#32
  let v132 : BitVec 1 := Scalar.cmpi .eq arg0 c399_i32
  let v133 : BitVec 32 := Scalar.extui v132
  let c0_i32_30 : BitVec 32 := 0#32
  let v134 : BitVec 1 := Scalar.cmpi .ne v133 c0_i32_30
  v134

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x5_S10000x5_0_0 : ∀ a, (![0, 0] : Fin 2 → Nat) a + S10000x5.size a ≤ S10000x5.size a
  h_S10000x5 : 0 < S10000x5.numel
  transposes_S10000x5_p1_0_S5x10000 : S10000x5.Transposes [1, 0] S5x10000
  slices_S5x10000_o0_0_S1x10000 : S5x10000.Slices ![0, 0] S1x10000
  slices_S5x10000_o1_0_S1x10000 : S5x10000.Slices ![1, 0] S1x10000
  slices_S5x10000_o2_0_S1x10000 : S5x10000.Slices ![2, 0] S1x10000
  slices_S5x10000_o3_0_S1x10000 : S5x10000.Slices ![3, 0] S1x10000
  slices_S5x10000_o4_0_S1x10000 : S5x10000.Slices ![4, 0] S1x10000
  reduces_S1x10000_S1 : S1x10000.Reduces [1] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S4000000x5.size a
  hwx0_0 : ∀ i : grid0.Coords, EltTy.bits .f32 = 32 ∨ (Rect.block (s := S4000000x5) S10000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x5.size a ≤ S4000000x5.size a
  hwx0_1 : ∀ i : grid0.Coords, EltTy.bits .f32 = 32 ∨ (Rect.block (s := S4000000x5) S10000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4000000x5 : Shape := ⟨2, ![4000000, 5]⟩
abbrev S4000000x1 : Shape := ⟨2, ![4000000, 1]⟩
abbrev S4000000 : Shape := ⟨1, ![4000000]⟩
abbrev S_ : Shape := ⟨0, ![]⟩
abbrev S4000000x2 : Shape := ⟨2, ![4000000, 2]⟩

abbrev nBuf : Space → Nat
  | .hbm => 152
  | .vmem => 0
  | .smem => 0
  | _ => 0

abbrev hbmTy0_0 (i : Nat) : BufTy := match i % 128 with
  | 0 => ⟨S4000000x5, .f32⟩
  | 1 => ⟨S4000000x5, .f32⟩
  | 2 => ⟨S4000000x1, .f32⟩
  | 3 => ⟨S4000000, .f32⟩
  | 4 => ⟨S4000000x1, .f32⟩
  | 5 => ⟨S4000000, .f32⟩
  | 6 => ⟨S4000000, .f32⟩
  | 7 => ⟨S4000000x1, .f32⟩
  | 8 => ⟨S4000000, .f32⟩
  | 9 => ⟨S4000000x1, .f32⟩
  | 10 => ⟨S4000000, .f32⟩
  | 11 => ⟨S4000000, .f32⟩
  | 12 => ⟨S4000000x1, .f32⟩
  | 13 => ⟨S4000000, .f32⟩
  | 14 => ⟨S4000000, .f32⟩
  | 15 => ⟨S4000000, .f32⟩
  | 16 => ⟨S4000000, .f32⟩
  | 17 => ⟨S4000000, .f32⟩
  | 18 => ⟨S_, .f32⟩
  | 19 => ⟨S4000000, .f32⟩
  | 20 => ⟨S4000000, .f32⟩
  | 21 => ⟨S4000000, .f32⟩
  | 22 => ⟨S_, .f32⟩
  | 23 => ⟨S4000000, .f32⟩
  | 24 => ⟨S4000000, .f32⟩
  | 25 => ⟨S4000000, .f32⟩
  | 26 => ⟨S4000000, .f32⟩
  | 27 => ⟨S4000000, .f32⟩
  | 28 => ⟨S4000000, .f32⟩
  | 29 => ⟨S4000000, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S4000000x2, .f32⟩
  | 36 => ⟨S4000000x1, .f32⟩
  | 37 => ⟨S4000000, .f32⟩
  | 38 => ⟨S4000000x1, .f32⟩
  | 39 => ⟨S4000000, .f32⟩
  | 40 => ⟨S4000000, .f32⟩
  | 41 => ⟨S4000000x1, .f32⟩
  | 42 => ⟨S4000000, .f32⟩
  | 43 => ⟨S4000000x1, .f32⟩
  | 44 => ⟨S4000000, .f32⟩
  | 45 => ⟨S4000000, .f32⟩
  | 46 => ⟨S4000000x1, .f32⟩
  | 47 => ⟨S4000000, .f32⟩
  | 48 => ⟨S4000000, .f32⟩
  | 49 => ⟨S4000000, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S4000000, .f32⟩
  | 56 => ⟨S_, .f32⟩
  | 57 => ⟨S4000000, .f32⟩
  | 58 => ⟨S4000000, .f32⟩
  | 59 => ⟨S4000000, .f32⟩
  | 60 => ⟨S4000000, .f32⟩
  | 61 => ⟨S4000000, .f32⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .f32⟩
  | 68 => ⟨S4000000, .f32⟩
  | 69 => ⟨S4000000x2, .f32⟩
  | 70 => ⟨S_, .f32⟩
  | 71 => ⟨S4000000, .f32⟩
  | 72 => ⟨S4000000, .f32⟩
  | 73 => ⟨S_, .f32⟩
  | 74 => ⟨S4000000, .f32⟩
  | 75 => ⟨S4000000, .f32⟩
  | 76 => ⟨S_, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S4000000x1, .f32⟩
  | 86 => ⟨S4000000, .f32⟩
  | 87 => ⟨S4000000x1, .f32⟩
  | 88 => ⟨S4000000, .f32⟩
  | 89 => ⟨S4000000, .f32⟩
  | 90 => ⟨S4000000x1, .f32⟩
  | 91 => ⟨S4000000, .f32⟩
  | 92 => ⟨S4000000x1, .f32⟩
  | 93 => ⟨S4000000, .f32⟩
  | 94 => ⟨S4000000, .f32⟩
  | 95 => ⟨S4000000, .f32⟩
  | 96 => ⟨S4000000, .f32⟩
  | 97 => ⟨S4000000, .f32⟩
  | 98 => ⟨S4000000, .f32⟩
  | 99 => ⟨S4000000, .f32⟩
  | 100 => ⟨S_, .f32⟩
  | 101 => ⟨S4000000, .f32⟩
  | 102 => ⟨S4000000, .f32⟩
  | 103 => ⟨S4000000, .f32⟩
  | 104 => ⟨S4000000, .f32⟩
  | 105 => ⟨S4000000, .f32⟩
  | 106 => ⟨S4000000, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S4000000, .f32⟩
  | 117 => ⟨S4000000, .f32⟩
  | 118 => ⟨S4000000, .f32⟩
  | 119 => ⟨S4000000, .f32⟩
  | 120 => ⟨S_, .f32⟩
  | 121 => ⟨S4000000, .f32⟩
  | 122 => ⟨S4000000, .f32⟩
  | 123 => ⟨S4000000, .f32⟩
  | 124 => ⟨S4000000, .f32⟩
  | 125 => ⟨S4000000, .f32⟩
  | 126 => ⟨S_, .f32⟩
  | 127 => ⟨S4000000, .f32⟩
  | _ => ⟨S4000000x5, .f32⟩

abbrev hbmTy0_1 (i : Nat) : BufTy := match i % 128 with
  | 0 => ⟨S4000000, .f32⟩
  | 1 => ⟨S4000000, .f32⟩
  | 2 => ⟨S4000000, .f32⟩
  | 3 => ⟨S_, .f32⟩
  | 4 => ⟨S_, .f32⟩
  | 5 => ⟨S_, .f32⟩
  | 6 => ⟨S4000000, .f32⟩
  | 7 => ⟨S4000000, .f32⟩
  | 8 => ⟨S_, .f32⟩
  | 9 => ⟨S4000000, .f32⟩
  | 10 => ⟨S4000000, .f32⟩
  | 11 => ⟨S4000000, .f32⟩
  | 12 => ⟨S4000000, .f32⟩
  | 13 => ⟨S_, .f32⟩
  | 14 => ⟨S4000000, .f32⟩
  | 15 => ⟨S4000000, .f32⟩
  | 16 => ⟨S_, .f32⟩
  | 17 => ⟨S4000000, .f32⟩
  | 18 => ⟨S4000000, .f32⟩
  | 19 => ⟨S_, .f32⟩
  | 20 => ⟨S4000000, .f32⟩
  | 21 => ⟨S4000000, .f32⟩
  | 22 => ⟨S_, .f32⟩
  | 23 => ⟨S_, .f32⟩
  | _ => ⟨S4000000x5, .f32⟩

abbrev hbmTy (i : Nat) : BufTy := match i / 128 with
  | 0 => hbmTy0_0 i
  | 1 => hbmTy0_1 i
  | _ => ⟨S4000000x5, .f32⟩

abbrev bufTy : (tb : Table) → Fin (tcTables nBuf tb) → BufTy
  | .hbm, ⟨i, _⟩ => hbmTy i
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst_1 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_2 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_cst_3 : Ref sig .tc := ⟨.hbm, 70, rfl⟩
abbrev main_v64 : Ref sig .tc := ⟨.hbm, 71, rfl⟩
abbrev main_v65 : Ref sig .tc := ⟨.hbm, 72, rfl⟩
abbrev main_cst_4 : Ref sig .tc := ⟨.hbm, 73, rfl⟩
abbrev main_v66 : Ref sig .tc := ⟨.hbm, 74, rfl⟩
abbrev main_v67 : Ref sig .tc := ⟨.hbm, 75, rfl⟩
abbrev main_cst_5 : Ref sig .tc := ⟨.hbm, 76, rfl⟩
abbrev main_v68 : Ref sig .tc := ⟨.hbm, 77, rfl⟩
abbrev main_v69 : Ref sig .tc := ⟨.hbm, 78, rfl⟩
abbrev main_cst_6 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_7 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_cst_8 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_cst_9 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_cst_10 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_cst_11 : Ref sig .tc := ⟨.hbm, 131, rfl⟩
abbrev main_cst_12 : Ref sig .tc := ⟨.hbm, 132, rfl⟩
abbrev main_call0_v0 : Ref sig .tc := ⟨.hbm, 133, rfl⟩
abbrev main_call0_v1 : Ref sig .tc := ⟨.hbm, 134, rfl⟩
abbrev main_call0_v2 : Ref sig .tc := ⟨.hbm, 135, rfl⟩
abbrev main_call0_v3 : Ref sig .tc := ⟨.hbm, 136, rfl⟩
abbrev main_call0_v4 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_13 : Ref sig .tc := ⟨.hbm, 141, rfl⟩
abbrev main_v120 : Ref sig .tc := ⟨.hbm, 142, rfl⟩
abbrev main_v121 : Ref sig .tc := ⟨.hbm, 143, rfl⟩
abbrev main_cst_14 : Ref sig .tc := ⟨.hbm, 144, rfl⟩
abbrev main_v122 : Ref sig .tc := ⟨.hbm, 145, rfl⟩
abbrev main_v123 : Ref sig .tc := ⟨.hbm, 146, rfl⟩
abbrev main_cst_15 : Ref sig .tc := ⟨.hbm, 147, rfl⟩
abbrev main_v124 : Ref sig .tc := ⟨.hbm, 148, rfl⟩
abbrev main_v125 : Ref sig .tc := ⟨.hbm, 149, rfl⟩
abbrev main_cst_16 : Ref sig .tc := ⟨.hbm, 150, rfl⟩
abbrev main_v126 : Ref sig .tc := ⟨.hbm, 151, rfl⟩

abbrev nD : Nat := 1
abbrev τ : Topo := Topo.v7x

variable {F : FTy → Type} [FloatOps F]

class Facts₀ : Prop where
  slices_S4000000x5_S4000000x1_0_2 : S4000000x5.Slices ![0, 2] S4000000x1
  shapeCasts_S4000000x1_S4000000 : S4000000x1.ShapeCasts S4000000
  slices_S4000000x5_S4000000x1_0_3 : S4000000x5.Slices ![0, 3] S4000000x1
  slices_S4000000x5_S4000000x1_0_4 : S4000000x5.Slices ![0, 4] S4000000x1
  bcast_S_S4000000 : S_.BroadcastsInDim S4000000 (![] : Fin 0 → Fin S4000000.rank)
  slices_S4000000x5_S4000000x2_0_0 : S4000000x5.Slices ![0, 0] S4000000x2
  slices_S4000000x2_S4000000x1_0_0 : S4000000x2.Slices ![0, 0] S4000000x1
  slices_S4000000x2_S4000000x1_0_1 : S4000000x2.Slices ![0, 1] S4000000x1
  reducesTo_S4000000_S_d0 : S4000000.ReducesTo [0] S_
  h_S_ : 0 < S_.numel

variable [Facts₀]

class Facts : Prop extends Facts₀ where

variable [Facts]
-- ==== Proof.KernelAccum.lean ====
/-
  What the kernel's accumulator holds, point by point.

  At every grid point the body adds, to the 1 × 1 scratch, ONE number computed from the point's two input blocks:
  `step x0 x1 acc` is the scratch after a point that found it at `acc` and read the blocks `x0` (predictions) and
  `x1` (targets). Point 0 first stores zero, so it leaves `step x0 x1 0`; every later point leaves
  `step x0 x1 (what the point before left)`; and the last point copies what it has just left into the output block.
  So after point n the scratch holds the n-fold composition `accum n`, by induction on the point, and the output
  block holds `accum 399` at the one point that writes it back. Nothing here opens the arithmetic inside `step`.
-/
import proofs.«121617_j18047452578536_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]

theorem hz : (![0, 0] : Fin 2 → Nat) = fun _ => 0 := funext fun a => by fin_cases a <;> rfl

/-- The scratch after one point: the point's contribution, a function of its two blocks, added to what it found. -/
def step (x0 x1 : Vec F S10000x5 .f32) (acc : Vec F S1x1 .f32) : Vec F S1x1 .f32 :=
  k0_pay1
    (k0_pay32 (k0_pay24 x1) (k0_pay25 x1) (k0_pay26 x1) (k0_pay27 x1))
    (k0_pay35 (k0_pay24 x1) (k0_pay25 x1) (k0_pay28 x1) (k0_pay29 x1))
    (k0_pay36 (k0_pay24 x1) (k0_pay25 x1) (k0_pay28 x1) (k0_pay29 x1))
    (k0_pay40 (k0_pay16 x0) (k0_pay17 x0) (k0_pay18 x0) (k0_pay24 x1) (k0_pay25 x1) (k0_pay26 x1) (k0_pay27 x1)
      (k0_pay28 x1) (k0_pay29 x1))
    (k0_pay41 (k0_pay5 x0) (k0_pay6 x0) (k0_pay16 x0) (k0_pay17 x0) (k0_pay18 x0) (k0_pay19 x1) (k0_pay20 x1)
      (k0_pay24 x1) (k0_pay25 x1) (k0_pay26 x1) (k0_pay27 x1) (k0_pay28 x1) (k0_pay29 x1))
    (k0_pay42 (k0_pay16 x0) (k0_pay17 x0))
    (k0_pay43 (k0_pay18 x0))
    acc

/-- The zero the first point stores before it adds. -/
abbrev zeroAcc : Vec F S1x1 .f32 := k0_pay2

/-! ## What each case leaves -/

/-- A middle point leaves, in the scratch it found at `xs0`, one step from `xs0`. -/
theorem scratch_B (c : Dev nD) (i : grid0.Coords) (a1 : Memref sig .tc .vmem S10000x5 .f32) (h1 : a1.IsWhole)
    (a2 : Memref sig .tc .vmem S10000x5 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S10000x5 .f32) (xs0 : Vec F S1x1 .f32) :
    sout0_B_0 c i a1 h1 a2 h2 a3 h3 a4 h4 hc0 hc1 x0 x1 xs0 = step x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S10000x5) hz,
    View.ld_unit_zero (S := S1x1) hz]
  rfl

/-- The last point leaves the same in the scratch … -/
theorem scratch_C (c : Dev nD) (i : grid0.Coords) (a1 : Memref sig .tc .vmem S10000x5 .f32) (h1 : a1.IsWhole)
    (a2 : Memref sig .tc .vmem S10000x5 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S10000x5 .f32) (xs0 : Vec F S1x1 .f32) :
    sout0_C_0 c i a1 h1 a2 h2 a3 h3 a4 h4 hc0 hc1 x0 x1 xs0 = step x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S10000x5) hz,
    View.ld_unit_zero (S := S1x1) hz]
  rfl

/-- … and copies it into the output block: the scratch read back after the store. -/
theorem out_C (c : Dev nD) (i : grid0.Coords) (a1 : Memref sig .tc .vmem S10000x5 .f32) (h1 : a1.IsWhole)
    (a2 : Memref sig .tc .vmem S10000x5 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S10000x5 .f32) (xs0 : Vec F S1x1 .f32) :
    out0_C_2 c i a1 h1 a2 h2 a3 h3 a4 h4 hc0 hc1 x0 x1 xs0 = step x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S10000x5) hz,
    View.ld_unit_zero (S := S1x1) hz]
  rfl

/-- The first point stores zero, reads it back, and leaves one step from zero. -/
theorem scratch_A (c : Dev nD) (i : grid0.Coords) (a1 : Memref sig .tc .vmem S10000x5 .f32) (h1 : a1.IsWhole)
    (a2 : Memref sig .tc .vmem S10000x5 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S10000x5 .f32) :
    sout0_A_0 c i a1 h1 a2 h2 a3 h3 a4 h4 hc0 hc1 x0 x1 = step x0 x1 zeroAcc := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz]
  simp only [View.readAt_eq_ld, h1.read_unread, h2.read_unread, View.ld_unit_zero (S := S10000x5) hz,
    View.readCov_unit_zero (S := S1x1) _ hz]
  rfl

/-! ## The accumulation over the grid -/

variable (m : (ℓ : Loc nD τ sig) → Buf (Elt F) ℓ)

/-- The two input blocks at a point, at their literal type. -/
abbrev predBlk (c : Dev nD) (t : Fin cfg0.N) : Vec F S10000x5 .f32 := iblk m c 0 t
abbrev targBlk (c : Dev nD) (t : Fin cfg0.N) : Vec F S10000x5 .f32 := iblk m c 1 t

/-- The scratch after point `n`: the steps of points 0 … n composed, from zero. -/
def accum (c : Dev nD) : (n : ℕ) → n < cfg0.N → Vec F S1x1 .f32
  | 0, h => step (predBlk m c ⟨0, h⟩) (targBlk m c ⟨0, h⟩) zeroAcc
  | n + 1, h => step (predBlk m c ⟨n + 1, h⟩) (targBlk m c ⟨n + 1, h⟩) (accum c n (Nat.lt_of_succ_lt h))

/-- The scratch component of what the frame's run found at each point IS that composition. -/
theorem scratchAt_eq (c : Dev nD) : ∀ (n : ℕ) (h : n < cfg0.N), (outsAt0 m c n h).2 = accum m c n h
  | 0, h => by
    rw [outsAt0_A m c ⟨0, h⟩ (Nat.zero_mod _) (by dsimp only; omega)]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (iblk m c 0 ⟨0, h⟩) (iblk m c 1 ⟨0, h⟩)
  | n + 1, h => by
    have hN : n + 1 < 400 := lt_of_lt_of_eq h (show cfg0.N = 400 from N_0)
    have h0 : ¬(⟨n + 1, h⟩ : Fin cfg0.N).val % 400 = 0 := by dsimp only; omega
    by_cases h1 : (⟨n + 1, h⟩ : Fin cfg0.N).val % 400 = 399
    · rw [outsAt0_C m c ⟨n + 1, h⟩ h0 h1]
      dsimp only
      rw [scratch_C]
      show step _ _ (outsAt0 m c n _).2 = step _ _ (accum m c n _)
      rw [scratchAt_eq c n]
    · rw [outsAt0_B m c ⟨n + 1, h⟩ h0 h1]
      dsimp only
      rw [scratch_B]
      show step _ _ (outsAt0 m c n _).2 = step _ _ (accum m c n _)
      rw [scratchAt_eq c n]

/-- At the last point the output block holds the whole composition. -/
theorem outAt_last (c : Dev nD) (t : Fin cfg0.N) (ht : t.val % 400 = 399) :
    (outsAt0 m c t.val t.isLt).1 = accum m c t.val t.isLt := by
  have hN : t.val < 400 := lt_of_lt_of_eq t.isLt (show cfg0.N = 400 from N_0)
  have h0 : ¬t.val % 400 = 0 := by omega
  obtain ⟨n, hn⟩ := t
  cases n with
  | zero => exact absurd ht (by dsimp only; omega)
  | succ n =>
    rw [outsAt0_C m c ⟨n + 1, hn⟩ h0 ht]
    dsimp only
    rw [out_C]
    show step _ _ (outsAt0 m c n _).2 = step _ _ (accum m c n _)
    rw [scratchAt_eq m c n]

end Cert.KernelIdeal.Accum

end
-- ==== Proof.PairLoss.lean ====
/-
  The loss of ONE pair of rotated boxes, on the extended reals, and the facts that join two ways of computing
  its sum over four million pairs.

  A rotated box (cx, cy, w, h, a) is read as a planar Gaussian: mean (cx, cy), covariance R(a) diag(W²/4, H²/4) R(a)ᵀ
  with W = max w h and H = min w h, so its entries are
      Cxx = cos²a · W²/4 + sin²a · H²/4,   Cyy = sin²a · W²/4 + cos²a · H²/4,   Cxy = sin a · cos a · (W²/4 - H²/4).
  For a predicted box p and a target box t, with ε added on both diagonals, S = (P + εI) + (T + εI), d the
  difference of the means, the Bhattacharyya distance is
      B = (1/8) · dᵀ S⁻¹ d + (1/2) · log det S - (1/4) · (log det(P + εI) + log det(T + εI)),
  the quadratic form written out for a 2 × 2 matrix as (Syy dx² - 2 Sxy dx dy + Sxx dy²) / det S; the loss of the
  pair is max (1 - exp (-clip B)) 0 with B clipped to [-100, 100]. `pairLoss` is that expression, every operation
  the extended reals' own (junk values at the corners included: the same expression on both sides carries the same
  junk, so nothing here needs the inputs finite).

  Two spellings of it differ by laws that hold at EVERY extended real, the infinities included:
  halving is the product with one half (`div_two`), and the opposite is the difference from zero (`neg_eq_zero_sub`).
  And a sum over 4 000 000 rows is the sum over 400 blocks of the sums over each block's 10 000 rows
  (`sum_blocks`): addition on the extended reals is commutative and associative.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.KfIou

open Idealize.ShloMosaic Idealize.ShloMosaic.ValueIdx

/-! ## One box as a Gaussian -/

/-- The longer side. -/
def sideW (b : Fin 5 → EReal) : EReal := max (b 2) (b 3)
/-- The shorter side. -/
def sideH (b : Fin 5 → EReal) : EReal := min (b 2) (b 3)
/-- The cosine and the sine of the angle. -/
def cosA (b : Fin 5 → EReal) : EReal := Ideal.cos (b 4)
def sinA (b : Fin 5 → EReal) : EReal := Ideal.sin (b 4)
/-- The square of half a side: the side times one half, times itself. -/
def sqHalf (x : EReal) : EReal := (x * Ideal.ofBits .f32 0x3F000000#32) * (x * Ideal.ofBits .f32 0x3F000000#32)
/-- The covariance's entries. -/
def covXX (b : Fin 5 → EReal) : EReal :=
  (cosA b * cosA b) * sqHalf (sideW b) + (sinA b * sinA b) * sqHalf (sideH b)
def covYY (b : Fin 5 → EReal) : EReal :=
  (sinA b * sinA b) * sqHalf (sideW b) + (cosA b * cosA b) * sqHalf (sideH b)
def covXY (b : Fin 5 → EReal) : EReal :=
  (sinA b * cosA b) * (sqHalf (sideW b) - sqHalf (sideH b))
/-- A diagonal entry with ε added. -/
def withEps (x : EReal) : EReal := x + Ideal.ofBits .f32 0x358637BD#32

/-! ## One pair -/

/-- The summed covariance's entries. -/
def sumXX (p t : Fin 5 → EReal) : EReal := withEps (covXX p) + withEps (covXX t)
def sumXY (p t : Fin 5 → EReal) : EReal := covXY p + covXY t
def sumYY (p t : Fin 5 → EReal) : EReal := withEps (covYY p) + withEps (covYY t)
/-- Its determinant. -/
def detSum (p t : Fin 5 → EReal) : EReal := sumXX p t * sumYY p t - sumXY p t * sumXY p t
/-- One box's regularized determinant. -/
def detOne (b : Fin 5 → EReal) : EReal := withEps (covXX b) * withEps (covYY b) - covXY b * covXY b
/-- The quadratic form dᵀ S⁻¹ d of the difference of the means, for a 2 × 2 matrix. -/
def quadForm (p t : Fin 5 → EReal) : EReal :=
  Ideal.div
    (sumYY p t * (p 0 - t 0) * (p 0 - t 0)
      - Ideal.ofBits .f32 0x40000000#32 * sumXY p t * (p 0 - t 0) * (p 1 - t 1)
      + sumXX p t * (p 1 - t 1) * (p 1 - t 1))
    (detSum p t)
/-- The Bhattacharyya distance. -/
def bhatt (p t : Fin 5 → EReal) : EReal :=
  Ideal.ofBits .f32 0x3E000000#32 * quadForm p t
    + (Ideal.ofBits .f32 0x3F000000#32 * Ideal.log (detSum p t)
        - Ideal.ofBits .f32 0x3E800000#32 * (Ideal.log (detOne p) + Ideal.log (detOne t)))
/-- Clipped to [-100, 100]. -/
def clipB (x : EReal) : EReal :=
  min (Ideal.ofBits .f32 0x42C80000#32) (max (Ideal.ofBits .f32 0xC2C80000#32) x)
/-- The pair's loss. -/
def pairLoss (p t : Fin 5 → EReal) : EReal :=
  max (Ideal.ofBits .f32 0x3F800000#32 - Ideal.exp (Ideal.ofBits .f32 0x00000000#32 - clipB (bhatt p t)))
      (Ideal.ofBits .f32 0x00000000#32)
    * Ideal.ofBits .f32 0x3F800000#32

/-! ## The two laws between the spellings -/

/-- The literal `2.0` is the real 2 and the literal `0.5` the real 1/2. -/
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- Halving is the product with one half, at the infinities too. -/
theorem div_two (x : EReal) :
    Ideal.div x (Ideal.ofBits .f32 0x40000000#32) = x * Ideal.ofBits .f32 0x3F000000#32 := by
  rw [ofBits_two, ofBits_half]
  exact Ideal.div_coe (by norm_num) x

/-- The opposite is the difference from zero, at the infinities too. -/
theorem neg_eq_zero_sub (x : EReal) : -x = Ideal.ofBits .f32 0x00000000#32 - x := by
  rw [Ideal.ofBits_zero_f32, zero_sub]

/-! ## A sum over the rows, block by block -/

/-- Row `r` of block `t`, of 400 blocks of 10 000 rows. -/
def rowOf (t : Fin 400) (r : Fin 10000) : Fin 4000000 :=
  ⟨t.val * 10000 + r.val, by have := t.isLt; have := r.isLt; omega⟩

/-- The rows are the pairs (block, row in the block). -/
def rowEquiv : Fin 400 × Fin 10000 ≃ Fin 4000000 where
  toFun q := rowOf q.1 q.2
  invFun n := (⟨n.val / 10000, by have := n.isLt; omega⟩, ⟨n.val % 10000, Nat.mod_lt _ (by norm_num)⟩)
  left_inv q := by
    obtain ⟨t, r⟩ := q
    have ht := t.isLt; have hr := r.isLt
    refine Prod.ext (Fin.ext ?_) (Fin.ext ?_)
    · show (t.val * 10000 + r.val) / 10000 = t.val; omega
    · show (t.val * 10000 + r.val) % 10000 = r.val; omega
  right_inv n := by
    apply Fin.ext
    show n.val / 10000 * 10000 + n.val % 10000 = n.val
    omega

/-- So a sum over all rows is the sum, over the blocks, of each block's sum. -/
theorem sum_blocks (f : Fin 4000000 → EReal) :
    ∑ n : Fin 4000000, f n = ∑ t : Fin 400, ∑ r : Fin 10000, f (rowOf t r) := by
  rw [← Equiv.sum_comp rowEquiv f, Fintype.sum_prod_type]
  rfl

/-! ## The arrays -/

/-- Box `n` of a 4 000 000 × 5 array of boxes: its row. -/
def boxAt (x : (⟨2, ![4000000, 5]⟩ : Shape).Idx → EReal) (n : Fin 4000000) : Fin 5 → EReal := fun k => x (ix2 n k)

/-- The sum of the losses of all the pairs (prediction n, target n). -/
def totalLoss (x0 x1 : (⟨2, ![4000000, 5]⟩ : Shape).Idx → EReal) : EReal :=
  ∑ n : Fin 4000000, pairLoss (boxAt x0 n) (boxAt x1 n)

/-- A sum over the indices of a vector of 4 000 000 entries is the sum over its coordinate. -/
theorem sum_rows (f : (⟨1, ![4000000]⟩ : Shape).Idx → EReal) : ∑ j, f j = ∑ n : Fin 4000000, f (ix1 n) :=
  (Equiv.sum_comp (idxEquiv1 (n := 4000000)).symm f).symm

/-- The total, block by block. -/
theorem totalLoss_blocks (x0 x1 : (⟨2, ![4000000, 5]⟩ : Shape).Idx → EReal) :
    totalLoss x0 x1 = ∑ t : Fin 400, ∑ r : Fin 10000, pairLoss (boxAt x0 (rowOf t r)) (boxAt x1 (rowOf t r)) :=
  sum_blocks fun n => pairLoss (boxAt x0 n) (boxAt x1 n)

end Cert.KfIou

end
-- ==== Proof.KernelLanes.lean ====
/-
  One grid point's contribution is the sum of its block's pair losses.

  The body transposes each 10 000 × 5 block, so that a box's five numbers sit in one LANE of five row vectors, and
  computes lane by lane: lane r of every intermediate vector is the quantity of `pairLoss` of the same name at the
  boxes in row r of the two blocks (`blkBox`). The kernel multiplies by one half where `pairLoss` does, and takes the
  difference from zero where `pairLoss` does, so no law is needed on this side: each vector read at lane r unfolds to
  the scalar expression. The lane sum of the losses, a reduction over ONE axis, is at the extended reals the sum over
  the 10 000 lanes, and the body adds it to the accumulator's one entry: `step_apply`.
-/
import proofs.«121617_j18047452578536_1_alg».proof.Proof.KernelAccum
import proofs.«121617_j18047452578536_1_alg».proof.Proof.PairLoss
import Idealize.ShloMosaic.Lib.ValueIdx
import Idealize.ShloMosaic.Lib.ValueLayout
import Idealize.ShloMosaic.PureOps.Ideal.Laws

noncomputable section

open scoped BigOperators

namespace Cert.KernelIdeal.Lanes

open Cert.KernelIdeal Cert.KernelIdeal.Gen Cert.KernelIdeal.Accum Idealize.ShloMosaic Idealize.ShloMosaic.ValueIdx Cert.KfIou

/-- The box in row `r` of a block of 10 000 boxes. -/
def blkBox (x : Vec Ideal S10000x5 .f32) (r : Fin 10000) : Fin 5 → EReal := fun k => x (ix2 r k)

/-! ## The five rows of the transposed block -/

/-- Row k of the transposed block, at lane r, is coordinate k of the box in row r. -/
theorem lane_of_row (x : Vec Ideal S10000x5 .f32) (hT : S10000x5.Transposes [1, 0] S5x10000) (off : Fin 2 → Nat)
    (hS : S5x10000.Slices off S1x10000) (k : Fin 5) (hoff : off = ![k.val, 0]) (r : Fin 10000) :
    extractStridedSlice S1x10000 off (transpose S5x10000 [1, 0] x hT) hS (ix2 (0 : Fin 1) r) = blkBox x r k := by
  subst hoff
  refine (extractStridedSlice_apply _ _ hS (ix2 (0 : Fin 1) r) (ix2 k r) (fun a => ?_)).trans (transpose_ix2_apply x hT k r)
  match a with
  | ⟨0, _⟩ => show k.val = k.val + 0; omega
  | ⟨1, _⟩ => show r.val = 0 + r.val; omega

variable (x0 x1 : Vec Ideal S10000x5 .f32) (r : Fin 10000)

theorem p_cx : k0_pay5 x0 (ix2 0 r) = blkBox x0 r 0 :=
  lane_of_row x0 Facts₀.transposes_S10000x5_p1_0_S5x10000 ![0, 0] Facts₀.slices_S5x10000_o0_0_S1x10000 0 rfl r
theorem p_cy : k0_pay6 x0 (ix2 0 r) = blkBox x0 r 1 :=
  lane_of_row x0 Facts₀.transposes_S10000x5_p1_0_S5x10000 ![1, 0] Facts₀.slices_S5x10000_o1_0_S1x10000 1 rfl r
theorem p_w : k0_pay7 x0 (ix2 0 r) = blkBox x0 r 2 :=
  lane_of_row x0 Facts₀.transposes_S10000x5_p1_0_S5x10000 ![2, 0] Facts₀.slices_S5x10000_o2_0_S1x10000 2 rfl r
theorem p_h : k0_pay8 x0 (ix2 0 r) = blkBox x0 r 3 :=
  lane_of_row x0 Facts₀.transposes_S10000x5_p1_0_S5x10000 ![3, 0] Facts₀.slices_S5x10000_o3_0_S1x10000 3 rfl r
theorem p_a : k0_pay9 x0 (ix2 0 r) = blkBox x0 r 4 :=
  lane_of_row x0 Facts₀.transposes_S10000x5_p1_0_S5x10000 ![4, 0] Facts₀.slices_S5x10000_o4_0_S1x10000 4 rfl r
theorem t_cx : k0_pay19 x1 (ix2 0 r) = blkBox x1 r 0 :=
  lane_of_row x1 Facts₀.transposes_S10000x5_p1_0_S5x10000 ![0, 0] Facts₀.slices_S5x10000_o0_0_S1x10000 0 rfl r
theorem t_cy : k0_pay20 x1 (ix2 0 r) = blkBox x1 r 1 :=
  lane_of_row x1 Facts₀.transposes_S10000x5_p1_0_S5x10000 ![1, 0] Facts₀.slices_S5x10000_o1_0_S1x10000 1 rfl r
theorem t_w : k0_pay21 x1 (ix2 0 r) = blkBox x1 r 2 :=
  lane_of_row x1 Facts₀.transposes_S10000x5_p1_0_S5x10000 ![2, 0] Facts₀.slices_S5x10000_o2_0_S1x10000 2 rfl r
theorem t_h : k0_pay22 x1 (ix2 0 r) = blkBox x1 r 3 :=
  lane_of_row x1 Facts₀.transposes_S10000x5_p1_0_S5x10000 ![3, 0] Facts₀.slices_S5x10000_o3_0_S1x10000 3 rfl r
theorem t_a : k0_pay23 x1 (ix2 0 r) = blkBox x1 r 4 :=
  lane_of_row x1 Facts₀.transposes_S10000x5_p1_0_S5x10000 ![4, 0] Facts₀.slices_S5x10000_o4_0_S1x10000 4 rfl r

/-! ## The transcendental operations and the literals, at a lane -/

theorem cos_at (v : FVec Ideal S1x10000 .f32) (i : S1x10000.Idx) : cos v i = Ideal.cos (v i) := rfl
theorem sin_at (v : FVec Ideal S1x10000 .f32) (i : S1x10000.Idx) : sin v i = Ideal.sin (v i) := rfl
theorem log_at (v : FVec Ideal S1x10000 .f32) (i : S1x10000.Idx) : log v i = Ideal.log (v i) := rfl
theorem exp_at (v : FVec Ideal S1x10000 .f32) (i : S1x10000.Idx) : exp v i = Ideal.exp (v i) := rfl
theorem lit_at (w : BitVec 32) : Scalar.ofBits (F := Ideal) .f32 w = Ideal.ofBits .f32 w := rfl

/-! ## The prediction's box, lane by lane -/

theorem p_cos : k0_pay10 x0 (ix2 0 r) = cosA (blkBox x0 r) := by
  simp only [k0_pay10, cos_at, p_a, cosA]
theorem p_sin : k0_pay11 x0 (ix2 0 r) = sinA (blkBox x0 r) := by
  simp only [k0_pay11, sin_at, p_a, sinA]
theorem p_sqW : k0_pay14 x0 (ix2 0 r) = sqHalf (sideW (blkBox x0 r)) := by
  simp only [k0_pay14, mulf_apply, maximumf_apply, broadcast_apply, lit_at, p_w, p_h, sqHalf, sideW]
theorem p_sqH : k0_pay15 x0 (ix2 0 r) = sqHalf (sideH (blkBox x0 r)) := by
  simp only [k0_pay15, mulf_apply, minimumf_apply, broadcast_apply, lit_at, p_w, p_h, sqHalf, sideH]
theorem p_xx : k0_pay16 x0 (ix2 0 r) = covXX (blkBox x0 r) := by
  simp only [k0_pay16, k0_pay12, k0_pay13, mulf_apply, addf_apply, p_cos, p_sin, p_sqW, p_sqH, covXX]
theorem p_yy : k0_pay17 x0 (ix2 0 r) = covYY (blkBox x0 r) := by
  simp only [k0_pay17, k0_pay12, k0_pay13, mulf_apply, addf_apply, p_cos, p_sin, p_sqW, p_sqH, covYY]
theorem p_xy : k0_pay18 x0 (ix2 0 r) = covXY (blkBox x0 r) := by
  simp only [k0_pay18, mulf_apply, subf_apply, p_cos, p_sin, p_sqW, p_sqH, covXY]

/-! ## The target's box, lane by lane -/

theorem t_sideW : k0_pay24 x1 (ix2 0 r) = sideW (blkBox x1 r) := by
  simp only [k0_pay24, maximumf_apply, t_w, t_h, sideW]
theorem t_sideH : k0_pay25 x1 (ix2 0 r) = sideH (blkBox x1 r) := by
  simp only [k0_pay25, minimumf_apply, t_w, t_h, sideH]
theorem t_cos : k0_pay26 x1 (ix2 0 r) = cosA (blkBox x1 r) := by
  simp only [k0_pay26, cos_at, t_a, cosA]
theorem t_sin : k0_pay27 x1 (ix2 0 r) = sinA (blkBox x1 r) := by
  simp only [k0_pay27, sin_at, t_a, sinA]
theorem t_cos2 : k0_pay28 x1 (ix2 0 r) = cosA (blkBox x1 r) * cosA (blkBox x1 r) := by
  simp only [k0_pay28, mulf_apply, t_cos]
theorem t_sin2 : k0_pay29 x1 (ix2 0 r) = sinA (blkBox x1 r) * sinA (blkBox x1 r) := by
  simp only [k0_pay29, mulf_apply, t_sin]
/-- The square of half a side, of any vector of sides. -/
theorem sqHalf_W (v : FVec Ideal S1x10000 .f32) (i : S1x10000.Idx) : k0_pay30 v i = sqHalf (v i) := by
  simp only [k0_pay30, mulf_apply, broadcast_apply, lit_at, sqHalf]
theorem sqHalf_H (v : FVec Ideal S1x10000 .f32) (i : S1x10000.Idx) : k0_pay31 v i = sqHalf (v i) := by
  simp only [k0_pay31, mulf_apply, broadcast_apply, lit_at, sqHalf]

/-! ## The pair, lane by lane -/

/-- The target's off-diagonal entry. -/
theorem t_xy : k0_pay32 (k0_pay24 x1) (k0_pay25 x1) (k0_pay26 x1) (k0_pay27 x1) (ix2 0 r) = covXY (blkBox x1 r) := by
  simp only [k0_pay32, mulf_apply, subf_apply, sqHalf_W, sqHalf_H, t_sideW, t_sideH, t_cos, t_sin, covXY]
/-- The target's diagonal entries with ε. -/
theorem t_xxe : k0_pay35 (k0_pay24 x1) (k0_pay25 x1) (k0_pay28 x1) (k0_pay29 x1) (ix2 0 r) = withEps (covXX (blkBox x1 r)) := by
  simp only [k0_pay35, mulf_apply, addf_apply, broadcast_apply, lit_at, sqHalf_W, sqHalf_H, t_sideW, t_sideH, t_cos2, t_sin2,
    covXX, withEps]
theorem t_yye : k0_pay36 (k0_pay24 x1) (k0_pay25 x1) (k0_pay28 x1) (k0_pay29 x1) (ix2 0 r) = withEps (covYY (blkBox x1 r)) := by
  simp only [k0_pay36, mulf_apply, addf_apply, broadcast_apply, lit_at, sqHalf_W, sqHalf_H, t_sideW, t_sideH, t_cos2, t_sin2,
    covYY, withEps]
/-- The prediction's diagonal entries with ε. -/
theorem p_xxe : k0_pay33 (k0_pay16 x0) (ix2 0 r) = withEps (covXX (blkBox x0 r)) := by
  simp only [k0_pay33, addf_apply, broadcast_apply, lit_at, p_xx, withEps]
theorem p_yye : k0_pay34 (k0_pay17 x0) (ix2 0 r) = withEps (covYY (blkBox x0 r)) := by
  simp only [k0_pay34, addf_apply, broadcast_apply, lit_at, p_yy, withEps]
/-- The summed matrix. -/
theorem s_xx : k0_pay37 (k0_pay16 x0) (k0_pay24 x1) (k0_pay25 x1) (k0_pay28 x1) (k0_pay29 x1) (ix2 0 r)
    = sumXX (blkBox x0 r) (blkBox x1 r) := by
  simp only [k0_pay37, addf_apply, p_xxe, t_xxe, sumXX]
theorem s_xy : k0_pay38 (k0_pay18 x0) (k0_pay24 x1) (k0_pay25 x1) (k0_pay26 x1) (k0_pay27 x1) (ix2 0 r)
    = sumXY (blkBox x0 r) (blkBox x1 r) := by
  simp only [k0_pay38, addf_apply, p_xy, t_xy, sumXY]
theorem s_yy : k0_pay39 (k0_pay17 x0) (k0_pay24 x1) (k0_pay25 x1) (k0_pay28 x1) (k0_pay29 x1) (ix2 0 r)
    = sumYY (blkBox x0 r) (blkBox x1 r) := by
  simp only [k0_pay39, addf_apply, p_yye, t_yye, sumYY]
/-- Its determinant. -/
theorem s_det : k0_pay40 (k0_pay16 x0) (k0_pay17 x0) (k0_pay18 x0) (k0_pay24 x1) (k0_pay25 x1) (k0_pay26 x1) (k0_pay27 x1)
      (k0_pay28 x1) (k0_pay29 x1) (ix2 0 r) = detSum (blkBox x0 r) (blkBox x1 r) := by
  simp only [k0_pay40, mulf_apply, subf_apply, s_xx, s_xy, s_yy, detSum]
/-- One eighth of the quadratic form. -/
theorem quad8 : k0_pay41 (k0_pay5 x0) (k0_pay6 x0) (k0_pay16 x0) (k0_pay17 x0) (k0_pay18 x0) (k0_pay19 x1) (k0_pay20 x1)
      (k0_pay24 x1) (k0_pay25 x1) (k0_pay26 x1) (k0_pay27 x1) (k0_pay28 x1) (k0_pay29 x1) (ix2 0 r)
    = Ideal.ofBits .f32 0x3E000000#32 * quadForm (blkBox x0 r) (blkBox x1 r) := by
  simp only [k0_pay41, mulf_apply, subf_apply, addf_apply, divf_apply, broadcast_apply, lit_at, s_xx, s_xy, s_yy, s_det,
    p_cx, p_cy, t_cx, t_cy, quadForm]
/-- The prediction's regularized determinant, in its two terms. -/
theorem p_det_a : k0_pay42 (k0_pay16 x0) (k0_pay17 x0) (ix2 0 r) = withEps (covXX (blkBox x0 r)) * withEps (covYY (blkBox x0 r)) := by
  simp only [k0_pay42, mulf_apply, p_xxe, p_yye]
theorem p_det_b : k0_pay43 (k0_pay18 x0) (ix2 0 r) = covXY (blkBox x0 r) * covXY (blkBox x0 r) := by
  simp only [k0_pay43, mulf_apply, p_xy]

/-! ## One step -/

/-- The index a reduction over the lanes sums at, for the one reduced index: lane k. -/
theorem lift_lane (h : S1x10000.Reduces [1] S1) (k : Fin 10000) : h.lift (ix1 (0 : Fin 1)) k = ix2 (0 : Fin 1) k := by
  funext a
  match a with
  | ⟨0, _⟩ => exact Fin.ext rfl
  | ⟨1, _⟩ => exact Fin.ext rfl

/-- A sum over the lanes of a row vector, from zero, is at the extended reals the sum of its 10 000 entries. -/
theorem lane_sum (src : FVec Ideal S1x10000 .f32) (h : S1x10000.Reduces [1] S1) (hφ : FKind.Formats .f32)
    (hacc : (0x00000000#32 : BitVec 32) = 0x00000000#32) :
    multiReduction .add [1] S1 src 0x00000000#32 h hφ hacc (ix1 (0 : Fin 1)) = ∑ k : Fin 10000, src (ix2 (0 : Fin 1) k) :=
  (Ideal.multiReduction_add_single src 0x00000000#32 h hφ hacc (ix1 0)).trans
    (Finset.sum_congr rfl fun k _ => congrArg src (lift_lane h k))

/-- The scratch's one entry after a step: what it held, plus the sum of the block's pair losses. -/
theorem step_apply (acc : Vec Ideal S1x1 .f32) :
    step x0 x1 acc (ix2 0 0) = acc (ix2 0 0) + ∑ r : Fin 10000, pairLoss (blkBox x0 r) (blkBox x1 r) := by
  unfold step k0_pay1
  simp only [shapeCast_self]
  rw [addf_apply, shapeCast_a_1a_apply]
  refine congrArg (acc (ix2 0 0) + ·) ((lane_sum _ _ _ _).trans (Finset.sum_congr rfl fun r _ => ?_))
  simp only [mulf_apply, subf_apply, addf_apply, maximumf_apply, minimumf_apply, broadcast_apply, lit_at, log_at, exp_at,
    t_xy, t_xxe, t_yye, s_det, quad8, p_det_a, p_det_b, pairLoss, clipB, bhatt, detOne]

end Cert.KernelIdeal.Lanes

end
-- ==== Proof.KernelTotal.lean ====
/-
  The kernel's result is the total loss.

  Point t's two windows hold rows 10 000·t … 10 000·t + 9 999 of the two argument arrays (the index maps move one
  block of rows per point and never along the columns), so the box in row r of the blocks is box 10 000·t + r of the
  arrays, and a step adds to the accumulator's entry the sum of block t's pair losses. The entry starts at zero, so
  after point n it is the sum of the blocks 0 … n, and after the last point the sum over all 400 blocks: the total
  loss, block by block.
  The output window's block is the whole 1 × 1 result array at every point (its index map is constantly zero), and
  only the last point writes it back; that one block covers the array, so the array ends holding the accumulator's
  last contents. The line after the region reshapes the 1 × 1 array to a scalar: the same one entry.
-/
import proofs.«121617_j18047452578536_1_alg».proof.Proof.KernelLanes
import Idealize.ShloMosaic.Lib.Pipeline.Value
import Idealize.ShloMosaic.Lib.StableHlo.Run

noncomputable section

open scoped BigOperators

namespace Cert.KernelIdeal.Total

open Cert.KernelIdeal Cert.KernelIdeal.Gen Cert.KernelIdeal.Accum Cert.KernelIdeal.Lanes Cert.KfIou
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two arrays of boxes the kernel is given. -/
abbrev predArr (c : Dev nD) : Buf (Elt Ideal) ((c.tc : Thread nD τ).loc main_arg0) := m ((c.tc : Thread nD τ).loc main_arg0)
abbrev targArr (c : Dev nD) : Buf (Elt Ideal) ((c.tc : Thread nD τ).loc main_arg1) := m ((c.tc : Thread nD τ).loc main_arg1)

/-! ## A block's rows are rows of the arrays -/

/-- Both input windows sit at block row t, block column 0, at point t. -/
theorem idx_in : ∀ t : Fin cfg0.N, win0_0.index t (0 : Fin 2) = t.val ∧ win0_0.index t (1 : Fin 2) = 0
      ∧ win0_1.index t (0 : Fin 2) = t.val ∧ win0_1.index t (1 : Fin 2) = 0 :=
  (by decide +kernel : ∀ t : Fin grid0.N, win0_0.index t (0 : Fin 2) = t.val ∧ win0_0.index t (1 : Fin 2) = 0
      ∧ win0_1.index t (0 : Fin 2) = t.val ∧ win0_1.index t (1 : Fin 2) = 0)

/-- A grid point as a block number. -/
def blockNo (t : Fin cfg0.N) : Fin 400 := ⟨t.val, lt_of_lt_of_eq t.isLt (show cfg0.N = 400 from N_0)⟩

theorem pred_box (c : Dev nD) (t : Fin cfg0.N) (r : Fin 10000) :
    blkBox (predBlk m c t) r = boxAt (predArr m c) (rowOf (blockNo t) r) := by
  funext k
  show iblk m c 0 t (ix2 r k) = predArr m c (ix2 (rowOf (blockNo t) r) k)
  unfold iblk
  rw [View.read_apply]
  show V m c main_arg0 _ = _
  rw [V_main_arg0]
  refine congrArg _ (funext fun a => Fin.ext ?_)
  match a with
  | ⟨0, _⟩ => show win0_0.index t 0 * 10000 + 1 * r.val = t.val * 10000 + r.val; rw [(idx_in t).1]; omega
  | ⟨1, _⟩ => show win0_0.index t 1 * 5 + 1 * k.val = k.val; rw [(idx_in t).2.1]; omega

theorem targ_box (c : Dev nD) (t : Fin cfg0.N) (r : Fin 10000) :
    blkBox (targBlk m c t) r = boxAt (targArr m c) (rowOf (blockNo t) r) := by
  funext k
  show iblk m c 1 t (ix2 r k) = targArr m c (ix2 (rowOf (blockNo t) r) k)
  unfold iblk
  rw [View.read_apply]
  show V m c main_arg1 _ = _
  rw [V_main_arg1]
  refine congrArg _ (funext fun a => Fin.ext ?_)
  match a with
  | ⟨0, _⟩ => show win0_1.index t 0 * 10000 + 1 * r.val = t.val * 10000 + r.val; rw [(idx_in t).2.2.1]; omega
  | ⟨1, _⟩ => show win0_1.index t 1 * 5 + 1 * k.val = k.val; rw [(idx_in t).2.2.2]; omega

/-! ## The accumulator's entry is a partial sum over the blocks -/

/-- The sum of block t's pair losses (nothing past the grid). -/
def blockLoss (c : Dev nD) (t : ℕ) : EReal :=
  if h : t < 400 then ∑ r : Fin 10000, pairLoss (boxAt (predArr m c) (rowOf ⟨t, h⟩ r)) (boxAt (targArr m c) (rowOf ⟨t, h⟩ r))
  else 0

/-- A step at point t adds block t's sum. -/
theorem step_block (c : Dev nD) (t : Fin cfg0.N) (acc : Vec Ideal S1x1 .f32) :
    step (predBlk m c t) (targBlk m c t) acc (ix2 0 0) = acc (ix2 0 0) + blockLoss m c t.val := by
  rw [step_apply, blockLoss, dif_pos (show t.val < 400 from (blockNo t).isLt)]
  refine congrArg (acc (ix2 0 0) + ·) (Finset.sum_congr rfl fun r _ => ?_)
  rw [pred_box, targ_box]
  rfl

/-- The accumulator starts at zero. -/
theorem zero_entry : (zeroAcc : Vec Ideal S1x1 .f32) (ix2 0 0) = 0 := by
  show k0_pay2 (F := Ideal) (ix2 0 0) = 0
  unfold k0_pay2
  simp only [shapeCast_self, broadcast_apply, lit_at, Ideal.ofBits_zero_f32]

/-- After point n it holds the sum of the blocks 0 … n. -/
theorem accum_entry (c : Dev nD) : ∀ (n : ℕ) (h : n < cfg0.N),
    accum m c n h (ix2 0 0) = ∑ t ∈ Finset.range (n + 1), blockLoss m c t
  | 0, h => by
    show step (predBlk m c ⟨0, h⟩) (targBlk m c ⟨0, h⟩) zeroAcc (ix2 0 0) = _
    rw [step_block, zero_entry, zero_add, Finset.sum_range_one]
  | n + 1, h => by
    show step (predBlk m c ⟨n + 1, h⟩) (targBlk m c ⟨n + 1, h⟩) (accum m c n _) (ix2 0 0) = _
    rw [step_block, accum_entry c n, Finset.sum_range_succ _ (n + 1)]

/-- After the last point it holds the total loss. -/
theorem last_entry (c : Dev nD) (h : 399 < cfg0.N) :
    accum m c 399 h (ix2 0 0) = totalLoss (predArr m c) (targArr m c) := by
  rw [accum_entry, totalLoss_blocks]
  show ∑ t ∈ Finset.range 400, blockLoss m c t = _
  rw [Finset.sum_range]
  refine Finset.sum_congr rfl fun t _ => ?_
  rw [blockLoss, dif_pos t.isLt]

/-! ## The result array, and the scalar after the reshape -/

theorem last_lt : 399 < cfg0.N := by rw [show cfg0.N = 400 from N_0]; decide

/-- What the result array ends holding: the accumulator after the last point. -/
def outArr (c : Dev nD) : Buf (Elt Ideal) ((c.tc : Thread nD τ).loc main_v0) := accum m c 399 last_lt

/-- The output window never moves: block (0, 0) at every point. -/
theorem idx_out : ∀ t : Fin cfg0.N, ∀ a : Fin 2, win0_2.index t a = 0 :=
  (by decide +kernel : ∀ t : Fin grid0.N, ∀ a : Fin 2, win0_2.index t a = 0)

/-- Its block is 1 × 1 at every point (no point's block overhangs). -/
theorem xsize_out : ∀ t : Fin cfg0.N, ∀ a : Fin 2, win0_2.xsize (grid0.coords t) a = 1 :=
  (by decide +kernel : ∀ t : Fin grid0.N, ∀ a : Fin 2, win0_2.xsize (grid0.coords t) a = 1)

/-- So its block, read out of any contents of the 1 × 1 array, is those contents. -/
theorem out_blk_read (t : Fin cfg0.N) (G : Buf (Elt Ideal) ((((0 : Dev nD)).tc : Thread nD τ).loc main_v0)) :
    ((cfg0.win 2).blk t).view.read (Elt Ideal) G = G :=
  Memref.read_access_unit_zero (Elt Ideal) main_v0
    (off := fun a => win0_2.index t a * main_v0.ty.shape.size a)
    (funext fun a => by rw [idx_out t a, Nat.zero_mul])
    (fun a => by show win0_2.index t a * _ + _ ≤ _; rw [idx_out t a, Nat.zero_mul, Nat.zero_add]) G

/-- The one write-back, at the last point, writes the accumulator's last contents. -/
theorem flushed_eq (c : Dev nD) (t : Fin cfg0.N) (hf : (cfg0.win 2).flush t = true) :
    (dats m 0 c).flushed 2 t = ((cfg0.win 2).blk t).view.read (Elt Ideal) (outArr m c) := by
  obtain rfl : c = 0 := Subsingleton.elim _ _
  have ht : t.val % 400 = 399 := (flush0_2 t).mp hf
  have hN : t.val < 400 := lt_of_lt_of_eq t.isLt (show cfg0.N = 400 from N_0)
  rw [out_blk_read]
  show (cfg0.win 2).cut (grid0.coords t) ((dats m 0 0).after 2 t) = _
  rw [after0_2, outAt_last m 0 t ht]
  obtain ⟨n, hn⟩ := t
  obtain rfl : n = 399 := by dsimp only at ht hN; omega
  rfl

/-- That block covers the whole array. -/
theorem cover (c : Dev nD) (i : (((cfg0.win 2).arr.view.loc (c.tc : Thread nD τ))).2.ty.Idx) :
    ∃ t : Fin cfg0.N, (cfg0.win 2).flush t = true ∧ i ∈ ((cfg0.win 2).blk t).view.set := by
  refine ⟨⟨399, last_lt⟩, (flush0_2 _).mpr rfl, ?_⟩
  show i ∈ ((View.whole main_v0).slice (win0_2.rect ⟨399, last_lt⟩)).set
  rw [View.set_slice_whole, Rect.mem_set_unit]
  intro a
  rw [idx_out _ a, xsize_out _ a, Nat.zero_mul, Nat.zero_add]
  have hs : ∀ b : Fin 2, S1x1.size b = 1 := by decide
  have hi : (i a).val < S1x1.size a := (i a).isLt
  have := hs a
  omega

/-- So the result array ends holding the accumulator's last contents. -/
theorem final_arr (c : Dev nD) : (dats m 0 c).arrAt 2 cfg0.N = outArr m c :=
  (dats m 0 c).arrAt_eq_of_cover 2 (outArr m c) (flushed_eq m c) (cover c)

/-- Every index of a 1 × 1 array sits at row-major position 0, as the scalar's one index does. -/
theorem pos_one (k : S1x1.Idx) (j : S_.Idx) : (S1x1.rowMajor k).val = (S_.rowMajor j).val := by
  have h1 : (S1x1.rowMajor k).val < 1 := (S1x1.rowMajor k).isLt
  have h0 : (S_.rowMajor j).val < 1 := (S_.rowMajor j).isLt
  omega

/-- The scalar the program returns: the reshape of the result array, its one entry the total loss. -/
theorem result_eq (c : Dev nD) :
    Pipeline.afterTail₀ cfgs (dats m) 0 (V0 m) [hostOps1] c main_v1 = fun _ => totalLoss (predArr m c) (targArr m c) := by
  unfold Pipeline.afterTail₀
  show StableHlo.after hostOps1 _ (Proc.devRef .tc main_v1) = _
  after_results
  funext j
  refine (shapeCast_apply _ shapeCasts_S1x1_S_ j (ix2 0 0) (pos_one _ _)).trans ?_
  rw [Pipeline.withArrays_arr spec0 launch0.win.arr_inj c _ _ 2, final_arr]
  exact last_entry m c last_lt

/-- The run, read: the returned scalar at the total loss of the two argument arrays, which end unchanged. -/
theorem run : θ_run defs (onTc (τ := τ) (main (F := Ideal))) ⟨m, fun _ => 0, ρ⟩ fun r => ∀ c : Dev nD,
      r.2.mem ((c.tc : Thread nD τ).loc main_v1) = (fun _ => totalLoss (predArr m c) (targArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Total

end
-- ==== Proof.RefValue.lean ====
/-
  The reference's result is the total loss.

  The reference reads each column of the two 4 000 000 × 5 arrays as a vector over the rows and computes, row by row,
  the loss of the pair (prediction n, target n), then sums the vector from zero. Read at row n, every stage is the
  stage of `pairLoss` of the same name at the boxes `boxAt x0 n`, `boxAt x1 n`: the sides W and H, the squares of
  the half sides (the reference HALVES, which is the product with one half: `div_two`), the covariance entries, the
  regularized sums, the three determinants, the quadratic form, the distance, its clipping, and the loss (the
  reference takes the OPPOSITE of the clipped distance, which is its difference from zero: `neg_eq_zero_sub`).
  The sum from zero over the vector's indices is then the sum over the rows: `totalLoss`.
-/
import proofs.«121617_j18047452578536_1_alg».proof.Proof.Gen.ReferenceIdeal.Read
import proofs.«121617_j18047452578536_1_alg».proof.Proof.PairLoss
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.KfIou

/-- An array of boxes, at the extended reals. -/
abbrev Arr := (⟨S4000000x5, .f32⟩ : BufTy).Contents (Elt Ideal)

/-! ## The columns, read at a row -/

/-- An entry of the array at an index whose coordinates are (n, k) is coordinate k of box n. -/
theorem col_eq (x : Arr) (j : S4000000x5.Idx) (n : Fin 4000000) (k : Fin 5) (h0 : (j 0).val = n.val)
    (h1 : (j 1).val = k.val) : x j = boxAt x n k :=
  congrArg x (funext fun a => match a with | ⟨0, _⟩ => Fin.ext h0 | ⟨1, _⟩ => Fin.ext h1)

theorem p_w_a (x0 : Arr) (n : Fin 4000000) : val_main_v1 (F := Ideal) x0 (ix1 n) = boxAt x0 n 2 :=
  (val_main_v1_apply x0 _).trans ((val_main_v0_apply x0 _).trans (col_eq x0 _ n 2 (by show n.val / 1 = n.val; omega) (by rfl)))
theorem p_h_a (x0 : Arr) (n : Fin 4000000) : val_main_v3 (F := Ideal) x0 (ix1 n) = boxAt x0 n 3 :=
  (val_main_v3_apply x0 _).trans ((val_main_v2_apply x0 _).trans (col_eq x0 _ n 3 (by show n.val / 1 = n.val; omega) (by rfl)))
theorem p_w_b (x0 : Arr) (n : Fin 4000000) : val_main_v6 (F := Ideal) x0 (ix1 n) = boxAt x0 n 2 :=
  (val_main_v6_apply x0 _).trans ((val_main_v5_apply x0 _).trans (col_eq x0 _ n 2 (by show n.val / 1 = n.val; omega) (by rfl)))
theorem p_h_b (x0 : Arr) (n : Fin 4000000) : val_main_v8 (F := Ideal) x0 (ix1 n) = boxAt x0 n 3 :=
  (val_main_v8_apply x0 _).trans ((val_main_v7_apply x0 _).trans (col_eq x0 _ n 3 (by show n.val / 1 = n.val; omega) (by rfl)))
theorem p_ang (x0 : Arr) (n : Fin 4000000) : val_main_v11 (F := Ideal) x0 (ix1 n) = boxAt x0 n 4 :=
  (val_main_v11_apply x0 _).trans ((val_main_v10_apply x0 _).trans (col_eq x0 _ n 4 (by show n.val / 1 = n.val; omega) (by rfl)))
theorem p_cx (x0 : Arr) (n : Fin 4000000) : val_main_v76 (F := Ideal) x0 (ix1 n) = boxAt x0 n 0 :=
  (val_main_v76_apply x0 _).trans ((val_main_v75_apply x0 _).trans ((val_main_v31_apply x0 _).trans (col_eq x0 _ n 0 (by show n.val / 1 = n.val; omega) (by rfl))))
theorem p_cy (x0 : Arr) (n : Fin 4000000) : val_main_v81 (F := Ideal) x0 (ix1 n) = boxAt x0 n 1 :=
  (val_main_v81_apply x0 _).trans ((val_main_v80_apply x0 _).trans ((val_main_v31_apply x0 _).trans (col_eq x0 _ n 1 (by show n.val / 1 = n.val; omega) (by rfl))))
theorem t_w_a (x1 : Arr) (n : Fin 4000000) : val_main_v33 (F := Ideal) x1 (ix1 n) = boxAt x1 n 2 :=
  (val_main_v33_apply x1 _).trans ((val_main_v32_apply x1 _).trans (col_eq x1 _ n 2 (by show n.val / 1 = n.val; omega) (by rfl)))
theorem t_h_a (x1 : Arr) (n : Fin 4000000) : val_main_v35 (F := Ideal) x1 (ix1 n) = boxAt x1 n 3 :=
  (val_main_v35_apply x1 _).trans ((val_main_v34_apply x1 _).trans (col_eq x1 _ n 3 (by show n.val / 1 = n.val; omega) (by rfl)))
theorem t_w_b (x1 : Arr) (n : Fin 4000000) : val_main_v38 (F := Ideal) x1 (ix1 n) = boxAt x1 n 2 :=
  (val_main_v38_apply x1 _).trans ((val_main_v37_apply x1 _).trans (col_eq x1 _ n 2 (by show n.val / 1 = n.val; omega) (by rfl)))
theorem t_h_b (x1 : Arr) (n : Fin 4000000) : val_main_v40 (F := Ideal) x1 (ix1 n) = boxAt x1 n 3 :=
  (val_main_v40_apply x1 _).trans ((val_main_v39_apply x1 _).trans (col_eq x1 _ n 3 (by show n.val / 1 = n.val; omega) (by rfl)))
theorem t_ang (x1 : Arr) (n : Fin 4000000) : val_main_v43 (F := Ideal) x1 (ix1 n) = boxAt x1 n 4 :=
  (val_main_v43_apply x1 _).trans ((val_main_v42_apply x1 _).trans (col_eq x1 _ n 4 (by show n.val / 1 = n.val; omega) (by rfl)))
theorem t_cx (x1 : Arr) (n : Fin 4000000) : val_main_v78 (F := Ideal) x1 (ix1 n) = boxAt x1 n 0 :=
  (val_main_v78_apply x1 _).trans ((val_main_v77_apply x1 _).trans ((val_main_v63_apply x1 _).trans (col_eq x1 _ n 0 (by show n.val / 1 = n.val; omega) (by rfl))))
theorem t_cy (x1 : Arr) (n : Fin 4000000) : val_main_v83 (F := Ideal) x1 (ix1 n) = boxAt x1 n 1 :=
  (val_main_v83_apply x1 _).trans ((val_main_v82_apply x1 _).trans ((val_main_v63_apply x1 _).trans (col_eq x1 _ n 1 (by show n.val / 1 = n.val; omega) (by rfl))))

/-! ## The literals, broadcast over the rows -/

theorem lit_v16 (i : S4000000.Idx) : val_main_v16 (F := Ideal) i = Ideal.ofBits .f32 0x40000000#32 :=
  (val_main_v16_apply i).trans rfl
theorem lit_v19 (i : S4000000.Idx) : val_main_v19 (F := Ideal) i = Ideal.ofBits .f32 0x40000000#32 :=
  (val_main_v19_apply i).trans rfl
theorem lit_v48 (i : S4000000.Idx) : val_main_v48 (F := Ideal) i = Ideal.ofBits .f32 0x40000000#32 :=
  (val_main_v48_apply i).trans rfl
theorem lit_v51 (i : S4000000.Idx) : val_main_v51 (F := Ideal) i = Ideal.ofBits .f32 0x40000000#32 :=
  (val_main_v51_apply i).trans rfl
theorem lit_v64 (i : S4000000.Idx) : val_main_v64 (F := Ideal) i = Ideal.ofBits .f32 0x358637BD#32 :=
  (val_main_v64_apply i).trans rfl
theorem lit_v66 (i : S4000000.Idx) : val_main_v66 (F := Ideal) i = Ideal.ofBits .f32 0x358637BD#32 :=
  (val_main_v66_apply i).trans rfl
theorem lit_v68 (i : S4000000.Idx) : val_main_v68 (F := Ideal) i = Ideal.ofBits .f32 0x358637BD#32 :=
  (val_main_v68_apply i).trans rfl
theorem lit_v70 (i : S4000000.Idx) : val_main_v70 (F := Ideal) i = Ideal.ofBits .f32 0x358637BD#32 :=
  (val_main_v70_apply i).trans rfl
theorem lit_v90 (i : S4000000.Idx) : val_main_v90 (F := Ideal) i = Ideal.ofBits .f32 0x40000000#32 :=
  (val_main_v90_apply i).trans rfl
theorem lit_v99 (i : S4000000.Idx) : val_main_v99 (F := Ideal) i = Ideal.ofBits .f32 0x3E000000#32 :=
  (val_main_v99_apply i).trans rfl
theorem lit_v108 (i : S4000000.Idx) : val_main_v108 (F := Ideal) i = Ideal.ofBits .f32 0x3F000000#32 :=
  (val_main_v108_apply i).trans rfl
theorem lit_v113 (i : S4000000.Idx) : val_main_v113 (F := Ideal) i = Ideal.ofBits .f32 0x3E800000#32 :=
  (val_main_v113_apply i).trans rfl
theorem lit_call0_v1 (i : S4000000.Idx) : val_main_call0_v1 (F := Ideal) i = Ideal.ofBits .f32 0xC2C80000#32 :=
  (val_main_call0_v1_apply i).trans rfl
theorem lit_call0_v4 (i : S4000000.Idx) : val_main_call0_v4 (F := Ideal) i = Ideal.ofBits .f32 0x42C80000#32 :=
  (val_main_call0_v4_apply i).trans rfl
theorem lit_v120 (i : S4000000.Idx) : val_main_v120 (F := Ideal) i = Ideal.ofBits .f32 0x3F800000#32 :=
  (val_main_v120_apply i).trans rfl
theorem lit_v122 (i : S4000000.Idx) : val_main_v122 (F := Ideal) i = Ideal.ofBits .f32 0x00000000#32 :=
  (val_main_v122_apply i).trans rfl
theorem lit_v124 (i : S4000000.Idx) : val_main_v124 (F := Ideal) i = Ideal.ofBits .f32 0x3F800000#32 :=
  (val_main_v124_apply i).trans rfl

/-! ## One box -/

theorem p_sqW (x0 : Arr) (n : Fin 4000000) : val_main_v18 (F := Ideal) x0 (ix1 n) = sqHalf (sideW (boxAt x0 n)) := by
  simp only [val_main_v18_apply, val_main_v17_apply, val_main_v4_apply, p_w_a, p_h_a, lit_v16, Ideal.addf_def, Ideal.subf_def, Ideal.mulf_def, Ideal.maximumf_def, Ideal.minimumf_def, Ideal.hostDivf_def, div_two, sqHalf, sideW]
theorem p_sqH (x0 : Arr) (n : Fin 4000000) : val_main_v21 (F := Ideal) x0 (ix1 n) = sqHalf (sideH (boxAt x0 n)) := by
  simp only [val_main_v21_apply, val_main_v20_apply, val_main_v9_apply, p_w_b, p_h_b, lit_v19, Ideal.addf_def, Ideal.subf_def, Ideal.mulf_def, Ideal.maximumf_def, Ideal.minimumf_def, Ideal.hostDivf_def, div_two, sqHalf, sideH]
theorem p_cos (x0 : Arr) (n : Fin 4000000) : val_main_v12 (F := Ideal) x0 (ix1 n) = cosA (boxAt x0 n) := by
  simp only [val_main_v12_apply, p_ang, Ideal.hostUnary_cos_def, cosA]
theorem p_sin (x0 : Arr) (n : Fin 4000000) : val_main_v13 (F := Ideal) x0 (ix1 n) = sinA (boxAt x0 n) := by
  simp only [val_main_v13_apply, p_ang, Ideal.hostUnary_sin_def, sinA]
theorem p_xx (x0 : Arr) (n : Fin 4000000) : val_main_v24 (F := Ideal) x0 (ix1 n) = covXX (boxAt x0 n) := by
  simp only [val_main_v24_apply, val_main_v22_apply, val_main_v23_apply, val_main_v14_apply, val_main_v15_apply, p_cos, p_sin, p_sqW, p_sqH, Ideal.addf_def, Ideal.subf_def, Ideal.mulf_def, Ideal.maximumf_def, Ideal.minimumf_def, Ideal.hostDivf_def, covXX]
theorem p_yy (x0 : Arr) (n : Fin 4000000) : val_main_v27 (F := Ideal) x0 (ix1 n) = covYY (boxAt x0 n) := by
  simp only [val_main_v27_apply, val_main_v25_apply, val_main_v26_apply, val_main_v14_apply, val_main_v15_apply, p_cos, p_sin, p_sqW, p_sqH, Ideal.addf_def, Ideal.subf_def, Ideal.mulf_def, Ideal.maximumf_def, Ideal.minimumf_def, Ideal.hostDivf_def, covYY]
theorem p_xy (x0 : Arr) (n : Fin 4000000) : val_main_v30 (F := Ideal) x0 (ix1 n) = covXY (boxAt x0 n) := by
  simp only [val_main_v30_apply, val_main_v28_apply, val_main_v29_apply, p_cos, p_sin, p_sqW, p_sqH, Ideal.addf_def, Ideal.subf_def, Ideal.mulf_def, Ideal.maximumf_def, Ideal.minimumf_def, Ideal.hostDivf_def, covXY]

theorem t_sqW (x1 : Arr) (n : Fin 4000000) : val_main_v50 (F := Ideal) x1 (ix1 n) = sqHalf (sideW (boxAt x1 n)) := by
  simp only [val_main_v50_apply, val_main_v49_apply, val_main_v36_apply, t_w_a, t_h_a, lit_v48, Ideal.addf_def, Ideal.subf_def, Ideal.mulf_def, Ideal.maximumf_def, Ideal.minimumf_def, Ideal.hostDivf_def, div_two, sqHalf, sideW]
theorem t_sqH (x1 : Arr) (n : Fin 4000000) : val_main_v53 (F := Ideal) x1 (ix1 n) = sqHalf (sideH (boxAt x1 n)) := by
  simp only [val_main_v53_apply, val_main_v52_apply, val_main_v41_apply, t_w_b, t_h_b, lit_v51, Ideal.addf_def, Ideal.subf_def, Ideal.mulf_def, Ideal.maximumf_def, Ideal.minimumf_def, Ideal.hostDivf_def, div_two, sqHalf, sideH]
theorem t_cos (x1 : Arr) (n : Fin 4000000) : val_main_v44 (F := Ideal) x1 (ix1 n) = cosA (boxAt x1 n) := by
  simp only [val_main_v44_apply, t_ang, Ideal.hostUnary_cos_def, cosA]
theorem t_sin (x1 : Arr) (n : Fin 4000000) : val_main_v45 (F := Ideal) x1 (ix1 n) = sinA (boxAt x1 n) := by
  simp only [val_main_v45_apply, t_ang, Ideal.hostUnary_sin_def, sinA]
theorem t_xx (x1 : Arr) (n : Fin 4000000) : val_main_v56 (F := Ideal) x1 (ix1 n) = covXX (boxAt x1 n) := by
  simp only [val_main_v56_apply, val_main_v54_apply, val_main_v55_apply, val_main_v46_apply, val_main_v47_apply, t_cos, t_sin, t_sqW, t_sqH, Ideal.addf_def, Ideal.subf_def, Ideal.mulf_def, Ideal.maximumf_def, Ideal.minimumf_def, Ideal.hostDivf_def, covXX]
theorem t_yy (x1 : Arr) (n : Fin 4000000) : val_main_v59 (F := Ideal) x1 (ix1 n) = covYY (boxAt x1 n) := by
  simp only [val_main_v59_apply, val_main_v57_apply, val_main_v58_apply, val_main_v46_apply, val_main_v47_apply, t_cos, t_sin, t_sqW, t_sqH, Ideal.addf_def, Ideal.subf_def, Ideal.mulf_def, Ideal.maximumf_def, Ideal.minimumf_def, Ideal.hostDivf_def, covYY]
theorem t_xy (x1 : Arr) (n : Fin 4000000) : val_main_v62 (F := Ideal) x1 (ix1 n) = covXY (boxAt x1 n) := by
  simp only [val_main_v62_apply, val_main_v60_apply, val_main_v61_apply, t_cos, t_sin, t_sqW, t_sqH, Ideal.addf_def, Ideal.subf_def, Ideal.mulf_def, Ideal.maximumf_def, Ideal.minimumf_def, Ideal.hostDivf_def, covXY]

/-! ## The diagonals with ε, and one box's determinant -/

theorem p_xxe (x0 : Arr) (n : Fin 4000000) : val_main_v65 (F := Ideal) x0 (ix1 n) = withEps (covXX (boxAt x0 n)) := by
  simp only [val_main_v65_apply, p_xx, lit_v64, Ideal.addf_def, Ideal.subf_def, Ideal.mulf_def, Ideal.maximumf_def, Ideal.minimumf_def, Ideal.hostDivf_def, withEps]
theorem p_yye (x0 : Arr) (n : Fin 4000000) : val_main_v67 (F := Ideal) x0 (ix1 n) = withEps (covYY (boxAt x0 n)) := by
  simp only [val_main_v67_apply, p_yy, lit_v66, Ideal.addf_def, Ideal.subf_def, Ideal.mulf_def, Ideal.maximumf_def, Ideal.minimumf_def, Ideal.hostDivf_def, withEps]
theorem t_xxe (x1 : Arr) (n : Fin 4000000) : val_main_v69 (F := Ideal) x1 (ix1 n) = withEps (covXX (boxAt x1 n)) := by
  simp only [val_main_v69_apply, t_xx, lit_v68, Ideal.addf_def, Ideal.subf_def, Ideal.mulf_def, Ideal.maximumf_def, Ideal.minimumf_def, Ideal.hostDivf_def, withEps]
theorem t_yye (x1 : Arr) (n : Fin 4000000) : val_main_v71 (F := Ideal) x1 (ix1 n) = withEps (covYY (boxAt x1 n)) := by
  simp only [val_main_v71_apply, t_yy, lit_v70, Ideal.addf_def, Ideal.subf_def, Ideal.mulf_def, Ideal.maximumf_def, Ideal.minimumf_def, Ideal.hostDivf_def, withEps]
theorem p_det (x0 : Arr) (n : Fin 4000000) : val_main_v103 (F := Ideal) x0 (ix1 n) = detOne (boxAt x0 n) := by
  simp only [val_main_v103_apply, val_main_v101_apply, val_main_v102_apply, p_xxe, p_yye, p_xy, Ideal.addf_def, Ideal.subf_def, Ideal.mulf_def, Ideal.maximumf_def, Ideal.minimumf_def, Ideal.hostDivf_def, detOne]
theorem t_det (x1 : Arr) (n : Fin 4000000) : val_main_v106 (F := Ideal) x1 (ix1 n) = detOne (boxAt x1 n) := by
  simp only [val_main_v106_apply, val_main_v104_apply, val_main_v105_apply, t_xxe, t_yye, t_xy, Ideal.addf_def, Ideal.subf_def, Ideal.mulf_def, Ideal.maximumf_def, Ideal.minimumf_def, Ideal.hostDivf_def, detOne]

/-! ## One pair -/

theorem s_xx (x0 x1 : Arr) (n : Fin 4000000) : val_main_v72 (F := Ideal) x0 x1 (ix1 n) = sumXX (boxAt x0 n) (boxAt x1 n) := by
  simp only [val_main_v72_apply, p_xxe, t_xxe, Ideal.addf_def, Ideal.subf_def, Ideal.mulf_def, Ideal.maximumf_def, Ideal.minimumf_def, Ideal.hostDivf_def, sumXX]
theorem s_xy (x0 x1 : Arr) (n : Fin 4000000) : val_main_v73 (F := Ideal) x0 x1 (ix1 n) = sumXY (boxAt x0 n) (boxAt x1 n) := by
  simp only [val_main_v73_apply, p_xy, t_xy, Ideal.addf_def, Ideal.subf_def, Ideal.mulf_def, Ideal.maximumf_def, Ideal.minimumf_def, Ideal.hostDivf_def, sumXY]
theorem s_yy (x0 x1 : Arr) (n : Fin 4000000) : val_main_v74 (F := Ideal) x0 x1 (ix1 n) = sumYY (boxAt x0 n) (boxAt x1 n) := by
  simp only [val_main_v74_apply, p_yye, t_yye, Ideal.addf_def, Ideal.subf_def, Ideal.mulf_def, Ideal.maximumf_def, Ideal.minimumf_def, Ideal.hostDivf_def, sumYY]
theorem d_x (x0 x1 : Arr) (n : Fin 4000000) : val_main_v79 (F := Ideal) x0 x1 (ix1 n) = boxAt x0 n 0 - boxAt x1 n 0 := by
  simp only [val_main_v79_apply, p_cx, t_cx, Ideal.addf_def, Ideal.subf_def, Ideal.mulf_def, Ideal.maximumf_def, Ideal.minimumf_def, Ideal.hostDivf_def]
theorem d_y (x0 x1 : Arr) (n : Fin 4000000) : val_main_v84 (F := Ideal) x0 x1 (ix1 n) = boxAt x0 n 1 - boxAt x1 n 1 := by
  simp only [val_main_v84_apply, p_cy, t_cy, Ideal.addf_def, Ideal.subf_def, Ideal.mulf_def, Ideal.maximumf_def, Ideal.minimumf_def, Ideal.hostDivf_def]
theorem s_det (x0 x1 : Arr) (n : Fin 4000000) : val_main_v87 (F := Ideal) x0 x1 (ix1 n) = detSum (boxAt x0 n) (boxAt x1 n) := by
  simp only [val_main_v87_apply, val_main_v85_apply, val_main_v86_apply, s_xx, s_xy, s_yy, Ideal.addf_def, Ideal.subf_def, Ideal.mulf_def, Ideal.maximumf_def, Ideal.minimumf_def, Ideal.hostDivf_def, detSum]
theorem quad (x0 x1 : Arr) (n : Fin 4000000) : val_main_v98 (F := Ideal) x0 x1 (ix1 n) = quadForm (boxAt x0 n) (boxAt x1 n) := by
  simp only [val_main_v98_apply, val_main_v97_apply, val_main_v94_apply, val_main_v96_apply, val_main_v95_apply, val_main_v89_apply, val_main_v88_apply, val_main_v93_apply, val_main_v92_apply, val_main_v91_apply, lit_v90,
    s_xx, s_xy, s_yy, d_x, d_y, s_det, Ideal.addf_def, Ideal.subf_def, Ideal.mulf_def, Ideal.maximumf_def, Ideal.minimumf_def, Ideal.hostDivf_def, quadForm]
theorem dist (x0 x1 : Arr) (n : Fin 4000000) : val_main_v116 (F := Ideal) x0 x1 (ix1 n) = bhatt (boxAt x0 n) (boxAt x1 n) := by
  simp only [val_main_v116_apply, val_main_v100_apply, val_main_v115_apply, val_main_v109_apply, val_main_v107_apply, val_main_v114_apply, val_main_v112_apply, val_main_v110_apply, val_main_v111_apply, lit_v99, lit_v108,
    lit_v113, quad, s_det, p_det, t_det, Ideal.hostUnary_log_def, Ideal.addf_def, Ideal.subf_def, Ideal.mulf_def, Ideal.maximumf_def, Ideal.minimumf_def, Ideal.hostDivf_def, bhatt]
theorem clipped (x0 x1 : Arr) (n : Fin 4000000) :
    val_main_v117 (F := Ideal) x0 x1 (ix1 n) = clipB (bhatt (boxAt x0 n) (boxAt x1 n)) := by
  simp only [val_main_v117_apply, val_main_call0_v2_apply, lit_call0_v1, lit_call0_v4, dist, Ideal.addf_def, Ideal.subf_def, Ideal.mulf_def, Ideal.maximumf_def, Ideal.minimumf_def, Ideal.hostDivf_def, clipB]
/-- Row n of the vector the reference sums is the loss of pair n. -/
theorem loss_at (x0 x1 : Arr) (n : Fin 4000000) :
    val_main_v125 (F := Ideal) x0 x1 (ix1 n) = pairLoss (boxAt x0 n) (boxAt x1 n) := by
  simp only [val_main_v125_apply, val_main_v123_apply, val_main_v121_apply, val_main_v119_apply, val_main_v118_apply, lit_v120, lit_v122, lit_v124, clipped, Ideal.hostUnary_exp_def,
    Ideal.hostNegf_def, Ideal.negf_def, neg_eq_zero_sub, Ideal.addf_def, Ideal.subf_def, Ideal.mulf_def, Ideal.maximumf_def, Ideal.minimumf_def, Ideal.hostDivf_def, pairLoss]

/-! ## The total -/

/-- The reference's result, at its one index, is the total loss. -/
theorem result_eq (x0 x1 : Arr) (i : S_.Idx) : val_main_v126 (F := Ideal) x0 x1 i = totalLoss x0 x1 := by
  rw [val_main_v126_apply, sum_rows (val_main_v125 (F := Ideal) x0 x1)]
  simp only [loss_at, val_main_cst_16_apply, Ideal.ofBits_def, Ideal.ofBits_zero_f32, zero_add]
  rfl

end Cert.ReferenceIdeal.RefValue

end
-- ==== Proof.lean ====
/-
  The sum of the Gaussian Kalman-filter IoU losses of four million pairs of rotated boxes: a kernel that walks the
  two 4 000 000 × 5 arrays in 400 blocks of 10 000 rows, adding each block's lane sum into a 1 × 1 accumulator,
  against a reference that computes the loss of every row as one vector and sums it.

  Both compute, for each pair, the same expression on the extended reals (Proof/PairLoss.lean, `pairLoss`); the two
  spellings differ only where the reference halves a side and the kernel multiplies it by one half, and where the
  reference negates the clipped distance and the kernel subtracts it from zero — equal at every extended real, the
  infinities included, so the precondition is never opened. The reference's scalar is `0 + ∑` over the rows of the
  pair losses (Proof/RefValue.lean); the kernel's is `((0 + b₀) + b₁) + … + b₃₉₉` of the blocks' sums, reshaped from
  1 × 1 to a scalar (Proof/KernelAccum.lean, Proof/KernelLanes.lean, Proof/KernelTotal.lean); and the sum over
  4 000 000 rows is the sum over the 400 blocks of the 10 000 rows of each. Both are `totalLoss` of arrays that agree.
  The frames of the two kernel programs are their generated runs; the reference's is its generated run with the
  result dropped; the idealization rewrote nothing, so `preserves` has nothing to state.
-/
import proofs.«121617_j18047452578536_1_alg».proof.Defs
import proofs.«121617_j18047452578536_1_alg».proof.Proof.Gen.Kernel
import proofs.«121617_j18047452578536_1_alg».proof.Proof.Gen.Kernel.Skeleton
import proofs.«121617_j18047452578536_1_alg».proof.Proof.Gen.Kernel.Launch
import proofs.«121617_j18047452578536_1_alg».proof.Proof.Gen.Kernel.Points
import proofs.«121617_j18047452578536_1_alg».proof.Proof.Gen.Kernel.Frame
import proofs.«121617_j18047452578536_1_alg».proof.Proof.Gen.KernelIdeal
import proofs.«121617_j18047452578536_1_alg».proof.Proof.Gen.KernelIdeal.Skeleton
import proofs.«121617_j18047452578536_1_alg».proof.Proof.Gen.KernelIdeal.Launch
import proofs.«121617_j18047452578536_1_alg».proof.Proof.Gen.KernelIdeal.Points
import proofs.«121617_j18047452578536_1_alg».proof.Proof.Gen.KernelIdeal.Frame
import proofs.«121617_j18047452578536_1_alg».proof.Proof.Gen.ReferenceIdeal
import proofs.«121617_j18047452578536_1_alg».proof.Proof.Gen.Pre_finite_inputs
import proofs.«121617_j18047452578536_1_alg».proof.Proof.Gen.ReferenceIdeal.Run
import proofs.«121617_j18047452578536_1_alg».proof.Proof.Gen.ReferenceIdeal.Read
import proofs.«121617_j18047452578536_1_alg».proof.Proof.KernelTotal
import proofs.«121617_j18047452578536_1_alg».proof.Proof.RefValue
import Idealize.ShloMosaic.Adequacy
import Idealize.ShloMosaic.Init

noncomputable section

namespace Cert.Proof

open Idealize.ShloMosaic Idealize.SL.Sem Cert.KfIou

/-- The word-level kernel runs, faults nowhere, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arrays that agree, both programs end with the total loss of the pairs. -/
theorem algebraic : Cert.algebraic_KernelIdeal_ReferenceIdeal := by
  intro m ρ m' ρ' _ hagree
  refine ⟨fun c _ => totalLoss (Cert.KernelIdeal.Total.predArr m c) (Cert.KernelIdeal.Total.targArr m c),
    Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v126_eq]
  funext i
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
